-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4000 : Shape := ⟨2, ![4096, 4000]⟩
abbrev S4000x64 : Shape := ⟨2, ![4000, 64]⟩
abbrev S4000x12288 : Shape := ⟨2, ![4000, 12288]⟩
abbrev S12288 : Shape := ⟨1, ![12288]⟩
abbrev S_ : Shape := ⟨0, ![]⟩

class Facts : Prop where
  bcast_S_S4096x4000 : S_.BroadcastsInDim S4096x4000 (![] : Fin 0 → Fin S4096x4000.rank)
  reducesTo_S4096x4000_S_d0_1 : S4096x4000.ReducesTo [0, 1] S_
  h_S_ : 0 < S_.numel
  bcast_S_S4000x64 : S_.BroadcastsInDim S4000x64 (![] : Fin 0 → Fin S4000x64.rank)
  reducesTo_S4000x64_S_d0_1 : S4000x64.ReducesTo [0, 1] S_
  bcast_S_S4000x12288 : S_.BroadcastsInDim S4000x12288 (![] : Fin 0 → Fin S4000x12288.rank)
  reducesTo_S4000x12288_S_d0_1 : S4000x12288.ReducesTo [0, 1] S_
  bcast_S_S12288 : S_.BroadcastsInDim S12288 (![] : Fin 0 → Fin S12288.rank)
  reducesTo_S12288_S_d0 : S12288.ReducesTo [0] S_

variable [Facts]

def fn_part1 {F : FTy → Type} [FloatOps F] (main_v13 : IVec S_ 1) (main_v16 : IVec S12288 1) : IVec S_ 1 :=
  let main_c_5 : IVec S_ 1 := constantI S_ 1 1#1
  let main_v17 : IVec S_ 1 := (fun x v => Host.reduce IntOp.andi x v reducesTo_S12288_S_d0 h_S_) main_v16 main_c_5
  let main_v18 : IVec S_ 1 := andi main_v13 main_v17
  main_v18

def fn {F : FTy → Type} [FloatOps F] (main_arg0 : FVec F S4096x4000 .f32) (main_arg1 : FVec F S4000x64 .f32) (main_arg2 : FVec F S4000x12288 .f32) (main_arg3 : FVec F S12288 .f32) : IVec S_ 1 :=
  let main_v0 : FVec F S4096x4000 .f32 := Host.absf main_arg0
  let main_cst : FVec F S_ .f32 := constant S_ .f32 0x7F800000#32
  let main_v1 : FVec F S4096x4000 .f32 := broadcastInDim S4096x4000 ![] bcast_S_S4096x4000 main_cst
  let main_v2 : IVec S4096x4000 1 := cmpf .olt main_v0 main_v1
  let main_c : IVec S_ 1 := constantI S_ 1 1#1
  let main_v3 : IVec S_ 1 := (fun x v => Host.reduce IntOp.andi x v reducesTo_S4096x4000_S_d0_1 h_S_) main_v2 main_c
  let main_v4 : FVec F S4000x64 .f32 := Host.absf main_arg1
  let main_cst_0 : FVec F S_ .f32 := constant S_ .f32 0x7F800000#32
  let main_v5 : FVec F S4000x64 .f32 := broadcastInDim S4000x64 ![] bcast_S_S4000x64 main_cst_0
  let main_v6 : IVec S4000x64 1 := cmpf .olt main_v4 main_v5
  let main_c_1 : IVec S_ 1 := constantI S_ 1 1#1
  let main_v7 : IVec S_ 1 := (fun x v => Host.reduce IntOp.andi x v reducesTo_S4000x64_S_d0_1 h_S_) main_v6 main_c_1
  let main_v8 : IVec S_ 1 := andi main_v3 main_v7
  let main_v9 : FVec F S4000x12288 .f32 := Host.absf main_arg2
  let main_cst_2 : FVec F S_ .f32 := constant S_ .f32 0x7F800000#32
  let main_v10 : FVec F S4000x12288 .f32 := broadcastInDim S4000x12288 ![] bcast_S_S4000x12288 main_cst_2
  let main_v11 : IVec S4000x12288 1 := cmpf .olt main_v9 main_v10
  let main_c_3 : IVec S_ 1 := constantI S_ 1 1#1
  let main_v12 : IVec S_ 1 := (fun x v => Host.reduce IntOp.andi x v reducesTo_S4000x12288_S_d0_1 h_S_) main_v11 main_c_3
  let main_v13 : IVec S_ 1 := andi main_v8 main_v12
  let main_v14 : FVec F S12288 .f32 := Host.absf main_arg3
  let main_cst_4 : FVec F S_ .f32 := constant S_ .f32 0x7F800000#32
  let main_v15 : FVec F S12288 .f32 := broadcastInDim S12288 ![] bcast_S_S12288 main_cst_4
  let main_v16 : IVec S12288 1 := cmpf .olt main_v14 main_v15
  fn_part1 (F := F) main_v13 main_v16
-- ==== Kernel.lean ====
abbrev S4096x4000 : Shape := ⟨2, ![4096, 4000]⟩
abbrev S4000x64 : Shape := ⟨2, ![4000, 64]⟩
abbrev S4000x12288 : Shape := ⟨2, ![4000, 12288]⟩
abbrev S12288 : Shape := ⟨1, ![12288]⟩
abbrev S_ : Shape := ⟨0, ![]⟩
abbrev S4096x4096 : Shape := ⟨2, ![4096, 4096]⟩
abbrev S4096x12288 : Shape := ⟨2, ![4096, 12288]⟩
abbrev S4096x64 : Shape := ⟨2, ![4096, 64]⟩
abbrev S4096x64x192 : Shape := ⟨3, ![4096, 64, 192]⟩
abbrev S1x12288 : Shape := ⟨2, ![1, 12288]⟩
abbrev S512x512 : Shape := ⟨2, ![512, 512]⟩
abbrev S512x1536 : Shape := ⟨2, ![512, 1536]⟩
abbrev S1x1536 : Shape := ⟨2, ![1, 1536]⟩
abbrev S4096x192x64 : Shape := ⟨3, ![4096, 192, 64]⟩

abbrev nBuf : Space → Nat
  | .hbm => 19
  | .vmem => 11
  | .smem => 0
  | _ => 0

abbrev bufTy : (tb : Table) → Fin (tcTables nBuf tb) → BufTy
  | .hbm, ⟨0, _⟩ => ⟨S4096x4000, .f32⟩
  | .hbm, ⟨1, _⟩ => ⟨S4000x64, .f32⟩
  | .hbm, ⟨2, _⟩ => ⟨S4000x12288, .f32⟩
  | .hbm, ⟨3, _⟩ => ⟨S12288, .f32⟩
  | .hbm, ⟨4, _⟩ => ⟨S_, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S_, .f32⟩
  | .hbm, ⟨9, _⟩ => ⟨S4096x12288, .f32⟩
  | .hbm, ⟨10, _⟩ => ⟨S_, .i32⟩
  | .hbm, ⟨11, _⟩ => ⟨S_, .f32⟩
  | .hbm, ⟨12, _⟩ => ⟨S4096x64, .f32⟩
  | .hbm, ⟨13, _⟩ => ⟨S4096x64x192, .f32⟩
  | .hbm, ⟨14, _⟩ => ⟨S4096x12288, .f32⟩
  | .hbm, ⟨15, _⟩ => ⟨S1x12288, .f32⟩
  | .hbm, ⟨16, _⟩ => ⟨S4096x12288, .f32⟩
  | .hbm, ⟨17, _⟩ => ⟨S4096x192x64, .f32⟩
  | .hbm, ⟨18, _⟩ => ⟨S4096x64x192, .f32⟩
  | .local _ .vmem, ⟨0, _⟩ => ⟨S512x512, .f32⟩
  | .local _ .vmem, ⟨1, _⟩ => ⟨S512x512, .f32⟩
  | .local _ .vmem, ⟨2, _⟩ => ⟨S512x1536, .f32⟩
  | .local _ .vmem, ⟨3, _⟩ => ⟨S512x1536, .f32⟩
  | .local _ .vmem, ⟨4, _⟩ => ⟨S512x1536, .f32⟩
  | .local _ .vmem, ⟨5, _⟩ => ⟨S512x1536, .f32⟩
  | .local _ .vmem, ⟨6, _⟩ => ⟨S1x1536, .f32⟩
  | .local _ .vmem, ⟨7, _⟩ => ⟨S1x1536, .f32⟩
  | .local _ .vmem, ⟨8, _⟩ => ⟨S512x1536, .f32⟩
  | .local _ .vmem, ⟨9, _⟩ => ⟨S512x1536, .f32⟩
  | .local _ .vmem, ⟨10, _⟩ => ⟨S512x1536, .f32⟩
  | _, _ => ⟨S4096x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  pads_S4096x4000_S4096x4096_000_0960 : S4096x4000.Pads (![0, 0] : Fin 2 → Nat) ![0, 96] ![0, 0] S4096x4096
  h_S_ : 0 < S_.numel
  pads_S4000x12288_S4096x12288_0960_000 : S4000x12288.Pads (![0, 0] : Fin 2 → Nat) ![96, 0] ![0, 0] S4096x12288
  pads_S4000x64_S4096x64_0960_000 : S4000x64.Pads (![0, 0] : Fin 2 → Nat) ![96, 0] ![0, 0] S4096x64
  bcast_S4096x64_S4096x64x192_0_1 : S4096x64.BroadcastsInDim S4096x64x192 (![0, 1] : Fin 2 → Fin S4096x64x192.rank)
  shapeCasts_S4096x64x192_S4096x12288 : S4096x64x192.ShapeCasts S4096x12288
  shapeCasts_S12288_S1x12288 : S12288.ShapeCasts S1x12288
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  shapeCasts_S4096x12288_S4096x192x64 : S4096x12288.ShapeCasts S4096x192x64
  transposes_S4096x192x64_S4096x64x192_0_2_1 : S4096x192x64.Transposes [0, 2, 1] S4096x64x192
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S4096x12288.size a
  hwx0_1 : ∀ i : grid0.Coords, EltTy.bits .f32 = 32 ∨ (Rect.block (s := S4096x12288) S512x1536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S4096x12288.size a
  hwx0_2 : ∀ i : grid0.Coords, EltTy.bits .f32 = 32 ∨ (Rect.block (s := S4096x12288) S512x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x12288.size a
  hwx0_3 : ∀ i : grid0.Coords, EltTy.bits .f32 = 32 ∨ (Rect.block (s := S1x12288) S1x1536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S4096x12288.size a
  hwx0_4 : ∀ i : grid0.Coords, EltTy.bits .f32 = 32 ∨ (Rect.block (s := S4096x12288) S512x1536.size (cc0_transform_4 i) (hinb0_4 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1536.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1536.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4000 : Shape := ⟨2, ![4096, 4000]⟩
abbrev S4000x64 : Shape := ⟨2, ![4000, 64]⟩
abbrev S4000x12288 : Shape := ⟨2, ![4000, 12288]⟩
abbrev S12288 : Shape := ⟨1, ![12288]⟩
abbrev S4000x64x192 : Shape := ⟨3, ![4000, 64, 192]⟩
abbrev S4096x12288 : Shape := ⟨2, ![4096, 12288]⟩
abbrev S1x12288 : Shape := ⟨2, ![1, 12288]⟩
abbrev S4096x192x64 : Shape := ⟨3, ![4096, 192, 64]⟩
abbrev S4096x64x192 : Shape := ⟨3, ![4096, 64, 192]⟩

abbrev nBuf : Space → Nat
  | .hbm => 13
  | .vmem => 0
  | .smem => 0
  | _ => 0

abbrev bufTy : (tb : Table) → Fin (tcTables nBuf tb) → BufTy
  | .hbm, ⟨0, _⟩ => ⟨S4096x4000, .f32⟩
  | .hbm, ⟨1, _⟩ => ⟨S4000x64, .f32⟩
  | .hbm, ⟨2, _⟩ => ⟨S4000x12288, .f32⟩
  | .hbm, ⟨3, _⟩ => ⟨S12288, .f32⟩
  | .hbm, ⟨4, _⟩ => ⟨S4000x64x192, .f32⟩
  | .hbm, ⟨5, _⟩ => ⟨S4000x12288, .f32⟩
  | .hbm, ⟨6, _⟩ => ⟨S4000x12288, .f32⟩
  | .hbm, ⟨7, _⟩ => ⟨S4096x12288, .f32⟩
  | .hbm, ⟨8, _⟩ => ⟨S1x12288, .f32⟩
  | .hbm, ⟨9, _⟩ => ⟨S4096x12288, .f32⟩
  | .hbm, ⟨10, _⟩ => ⟨S4096x12288, .f32⟩
  | .hbm, ⟨11, _⟩ => ⟨S4096x192x64, .f32⟩
  | .hbm, ⟨12, _⟩ => ⟨S4096x64x192, .f32⟩
  | _, _ => ⟨S4096x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4000x64_S4000x64x192_0_1 : S4000x64.BroadcastsInDim S4000x64x192 (![0, 1] : Fin 2 → Fin S4000x64x192.rank)
  shapeCasts_S4000x64x192_S4000x12288 : S4000x64x192.ShapeCasts S4000x12288
  bcast_S12288_S1x12288_1 : S12288.BroadcastsInDim S1x12288 (![1] : Fin 1 → Fin S1x12288.rank)
  bcast_S1x12288_S4096x12288_0_1 : S1x12288.BroadcastsInDim S4096x12288 (![0, 1] : Fin 2 → Fin S4096x12288.rank)
  shapeCasts_S4096x12288_S4096x192x64 : S4096x12288.ShapeCasts S4096x192x64
  transposes_S4096x192x64_S4096x64x192_0_2_1 : S4096x192x64.Transposes [0, 2, 1] S4096x64x192
  dot_S4096x4000_S4000x12288_S4096x12288_1_0_0_1_n_n_wf : DotDims.WF S4096x4000 S4000x12288 S4096x12288 [1] [0] [0] [1] [] []

variable [Facts₀]

def dot_S4096x4000_S4000x12288_S4096x12288_1_0_0_1_n_n : DotDims S4096x4000 S4000x12288 S4096x12288 where
  lhsContracting := [1]
  rhsContracting := [0]
  lhsNonContracting := [0]
  rhsNonContracting := [1]
  lhsBatch := []
  rhsBatch := []
  wf := dot_S4096x4000_S4000x12288_S4096x12288_1_0_0_1_n_n_wf

class Facts : Prop extends Facts₀ where

variable [Facts]
-- ==== Proof.Pieces.lean ====
/-
  What one run of the kernel body leaves behind, as values of what it loaded.

  The body reads a block `x` of cells by genes, blocks `w` and `mr` of genes by columns and a bias row, and keeps a
  running accumulator. At the first gene block of an output block it resets the accumulator to zero and then adds the
  block product; at every later gene block it adds the block product to what the point before left; at the last gene
  block it also writes accumulator plus bias to the output block. Each buffer is stored whole, so what it holds
  afterwards is the value stored last, and a load of the accumulator after the reset reads the reset value.
-/
import proofs.«131649_j3874060501841_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.MaskedEmbed.Kernel

open Cert.KernelIdeal Cert.KernelIdeal.Gen

variable {F : FTy → Type} [FloatOps F]

/-- Every store and load of the body is at offset zero of its buffer. -/
theorem hz : (![0, 0] : Fin 2 → Nat) = fun _ => 0 := funext fun a => by fin_cases a <;> rfl

/-- First gene block: the accumulator ends at zero plus the block product. -/
theorem scratch_first (c : Dev nD) (i : grid0.Coords) (arg3 : Memref sig .tc .vmem S512x512 .f32) (harg3 : arg3.IsWhole) (arg4 : Memref sig .tc .vmem S512x1536 .f32) (harg4 : arg4.IsWhole) (arg5 : Memref sig .tc .vmem S512x1536 .f32) (harg5 : arg5.IsWhole) (arg6 : Memref sig .tc .vmem S1x1536 .f32) (harg6 : arg6.IsWhole) (arg7 : Memref sig .tc .vmem S512x1536 .f32) (harg7 : arg7.IsWhole) (arg8 : Memref sig .tc .vmem S512x1536 .f32) (harg8 : arg8.IsWhole) (hc0 : cond0_0 i) (hc1 : ¬cond0_1 i)
    (x : Vec F S512x512 .f32) (w mr : Vec F S512x1536 .f32) (bias : Vec F S1x1536 .f32) :
    sout0_A_0 c i arg3 harg3 arg4 harg4 arg5 harg5 arg6 harg6 arg7 harg7 arg8 harg8 hc0 hc1 x w mr bias = k0_pay2 x w mr (k0_pay1 (F := F)) := by
  unfold sout0_A_0
  rw [View.read_writes_eq_canon _ _ _ (scover0_A_0 c i arg3 harg3 arg4 harg4 arg5 harg5 arg6 harg6 arg7 harg7 arg8 harg8 hc0 hc1 x w mr bias)]
  unfold kernelRun0_A
  dsimp only
  sl_unfold_words
  rw [View.canon_cons_unit_zero (S := S512x1536) hz]
  simp only [View.readAt_eq_ld, harg3.read_unread, harg4.read_unread, harg5.read_unread, harg6.read_unread, harg8.read_unread,
    View.ld_unit_zero (S := S512x512) hz, View.ld_unit_zero (S := S512x1536) hz, View.ld_unit_zero (S := S1x1536) hz,
    View.readCov_unit_zero (S := S512x1536) _ hz]

/-- A middle gene block: the accumulator ends at what the point before left plus the block product. -/
theorem scratch_middle (c : Dev nD) (i : grid0.Coords) (arg3 : Memref sig .tc .vmem S512x512 .f32) (harg3 : arg3.IsWhole) (arg4 : Memref sig .tc .vmem S512x1536 .f32) (harg4 : arg4.IsWhole) (arg5 : Memref sig .tc .vmem S512x1536 .f32) (harg5 : arg5.IsWhole) (arg6 : Memref sig .tc .vmem S1x1536 .f32) (harg6 : arg6.IsWhole) (arg7 : Memref sig .tc .vmem S512x1536 .f32) (harg7 : arg7.IsWhole) (arg8 : Memref sig .tc .vmem S512x1536 .f32) (harg8 : arg8.IsWhole) (hc0 : ¬cond0_0 i) (hc1 : ¬cond0_1 i)
    (x : Vec F S512x512 .f32) (w mr : Vec F S512x1536 .f32) (bias : Vec F S1x1536 .f32) (acc : Vec F S512x1536 .f32) :
    sout0_B_0 c i arg3 harg3 arg4 harg4 arg5 harg5 arg6 harg6 arg7 harg7 arg8 harg8 hc0 hc1 x w mr bias acc = k0_pay2 x w mr acc := by
  unfold sout0_B_0
  rw [View.read_writes_eq_canon _ _ _ (scover0_B_0 c i arg3 harg3 arg4 harg4 arg5 harg5 arg6 harg6 arg7 harg7 arg8 harg8 hc0 hc1 x w mr bias acc)]
  unfold kernelRun0_B
  dsimp only
  sl_unfold_words
  rw [View.canon_unit_zero (S := S512x1536) hz]
  simp only [View.readAt_eq_ld, harg3.read_unread, harg4.read_unread, harg5.read_unread, harg6.read_unread, harg8.read_unread,
    View.ld_unit_zero (S := S512x512) hz, View.ld_unit_zero (S := S512x1536) hz, View.ld_unit_zero (S := S1x1536) hz,
    View.readCov_unit_zero (S := S512x1536) _ hz]

/-- Last gene block: the accumulator is updated the same way … -/
theorem scratch_last (c : Dev nD) (i : grid0.Coords) (arg3 : Memref sig .tc .vmem S512x512 .f32) (harg3 : arg3.IsWhole) (arg4 : Memref sig .tc .vmem S512x1536 .f32) (harg4 : arg4.IsWhole) (arg5 : Memref sig .tc .vmem S512x1536 .f32) (harg5 : arg5.IsWhole) (arg6 : Memref sig .tc .vmem S1x1536 .f32) (harg6 : arg6.IsWhole) (arg7 : Memref sig .tc .vmem S512x1536 .f32) (harg7 : arg7.IsWhole) (arg8 : Memref sig .tc .vmem S512x1536 .f32) (harg8 : arg8.IsWhole) (hc0 : ¬cond0_0 i) (hc1 : cond0_1 i)
    (x : Vec F S512x512 .f32) (w mr : Vec F S512x1536 .f32) (bias : Vec F S1x1536 .f32) (acc : Vec F S512x1536 .f32) :
    sout0_C_0 c i arg3 harg3 arg4 harg4 arg5 harg5 arg6 harg6 arg7 harg7 arg8 harg8 hc0 hc1 x w mr bias acc = k0_pay2 x w mr acc := by
  unfold sout0_C_0
  rw [View.read_writes_eq_canon _ _ _ (scover0_C_0 c i arg3 harg3 arg4 harg4 arg5 harg5 arg6 harg6 arg7 harg7 arg8 harg8 hc0 hc1 x w mr bias acc)]
  unfold kernelRun0_C
  dsimp only
  sl_unfold_words
  rw [View.canon_unit_zero (S := S512x1536) hz]
  simp only [View.readAt_eq_ld, harg3.read_unread, harg4.read_unread, harg5.read_unread, harg6.read_unread, harg8.read_unread,
    View.ld_unit_zero (S := S512x512) hz, View.ld_unit_zero (S := S512x1536) hz, View.ld_unit_zero (S := S1x1536) hz,
    View.readCov_unit_zero (S := S512x1536) _ hz]

/-- … and the output block is the updated accumulator plus the bias row. -/
theorem output_last (c : Dev nD) (i : grid0.Coords) (arg3 : Memref sig .tc .vmem S512x512 .f32) (harg3 : arg3.IsWhole) (arg4 : Memref sig .tc .vmem S512x1536 .f32) (harg4 : arg4.IsWhole) (arg5 : Memref sig .tc .vmem S512x1536 .f32) (harg5 : arg5.IsWhole) (arg6 : Memref sig .tc .vmem S1x1536 .f32) (harg6 : arg6.IsWhole) (arg7 : Memref sig .tc .vmem S512x1536 .f32) (harg7 : arg7.IsWhole) (arg8 : Memref sig .tc .vmem S512x1536 .f32) (harg8 : arg8.IsWhole) (hc0 : ¬cond0_0 i) (hc1 : cond0_1 i)
    (x : Vec F S512x512 .f32) (w mr : Vec F S512x1536 .f32) (bias : Vec F S1x1536 .f32) (acc : Vec F S512x1536 .f32) :
    out0_C_4 c i arg3 harg3 arg4 harg4 arg5 harg5 arg6 harg6 arg7 harg7 arg8 harg8 hc0 hc1 x w mr bias acc = k0_pay3 (k0_pay2 x w mr acc) bias := by
  unfold out0_C_4
  rw [View.read_writes_eq_canon _ _ _ (cover0_C_4 c i arg3 harg3 arg4 harg4 arg5 harg5 arg6 harg6 arg7 harg7 arg8 harg8 hc0 hc1 x w mr bias acc)]
  unfold kernelRun0_C
  dsimp only
  sl_unfold_words
  rw [View.canon_unit_zero (S := S512x1536) hz]
  simp only [View.readAt_eq_ld, harg3.read_unread, harg4.read_unread, harg5.read_unread, harg6.read_unread, harg8.read_unread,
    View.ld_unit_zero (S := S512x512) hz, View.ld_unit_zero (S := S512x1536) hz, View.ld_unit_zero (S := S1x1536) hz,
    View.readCov_unit_zero (S := S512x1536) _ hz]

end Cert.MaskedEmbed.Kernel

end
-- ==== Proof.Payload.lean ====
/-
  The three values the kernel body stores, read entry by entry over the extended reals.

  With `x` a 512×512 block of cells by genes, `w` and `mr` 512×1536 blocks of genes by columns, `acc` the running
  512×1536 accumulator and `bias` a 1×1536 row:

    the reset block            is  0                                                    at every entry;
    the accumulator update     is  acc (r, c) + ∑ q, x (r, q) · (w (q, c) · mr (q, c))      at entry (r, c);
    the output block           is  acc (r, c) + bias (0, c)                                at entry (r, c).

  Over the extended reals a change of float format is the identity, and a block product into a zero accumulator is the
  plain sum over the contracted axis; the contracted axis is the block's 512 genes.
-/
import proofs.«131649_j3874060501841_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.MaskedEmbed.Kernel

open Cert.KernelIdeal Cert.KernelIdeal.Gen

/-- The left operand is read at the output's row … -/
theorem lhs_blockDot_0 (i : S512x1536.Idx) (q : dot_S512x512_S512x1536_S512x1536_1_0_0_1_n_n.contr.Idx) :
    (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
/-- … and the contracted gene; -/
theorem lhs_blockDot_1 (i : S512x1536.Idx) (q : dot_S512x512_S512x1536_S512x1536_1_0_0_1_n_n.contr.Idx) :
    (dot_S512x512_S512x1536_S512x1536_1_0_0_1_n_n.lhsIdx i q 1).val = (q ⟨0, by decide⟩).val :=
  dot_S512x512_S512x1536_S512x1536_1_0_0_1_n_n.lhsIdx_val_of_single rfl i q
/-- the right operand at the contracted gene … -/
theorem rhs_blockDot_0 (i : S512x1536.Idx) (q : dot_S512x512_S512x1536_S512x1536_1_0_0_1_n_n.contr.Idx) :
    (dot_S512x512_S512x1536_S512x1536_1_0_0_1_n_n.rhsIdx i q 0).val = (q ⟨0, by decide⟩).val :=
  dot_S512x512_S512x1536_S512x1536_1_0_0_1_n_n.rhsIdx_val_of_single rfl i q
/-- … and the output's column. -/
theorem rhs_blockDot_1 (i : S512x1536.Idx) (q : dot_S512x512_S512x1536_S512x1536_1_0_0_1_n_n.contr.Idx) :
    (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- A block product into the zero accumulator is, at (r, c), the sum over the block's genes of the factors' products. -/
theorem blockProduct_apply (a : FVec Ideal S512x512 .bf16) (b : FVec Ideal S512x1536 .bf16) (r : Fin 512) (c : Fin 1536) :
    matmul dot_S512x512_S512x1536_S512x1536_1_0_0_1_n_n none a b (constant S512x1536 .f32 0x00000000#32) (ix2 r c)
      = ∑ q : Fin 512, a (ix2 r q) * b (ix2 q c) := by
  simp only [matmul]
  rw [Ideal.matmul_constant_zero_apply, ← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 r c) ((contrEquiv1 dot_S512x512_S512x1536_S512x1536_1_0_0_1_n_n 512 rfl rfl).symm k) = ix2 r k := funext fun a => Fin.ext (by
    match a with
    | ⟨0, _⟩ => exact lhs_blockDot_0 _ _
    | ⟨1, _⟩ => exact (lhs_blockDot_1 _ _).trans hk)
  have er : dot_S512x512_S512x1536_S512x1536_1_0_0_1_n_n.rhsIdx (ix2 r c) ((contrEquiv1 dot_S512x512_S512x1536_S512x1536_1_0_0_1_n_n 512 rfl rfl).symm k) = ix2 k c := funext fun a => Fin.ext (by
    match a with
    | ⟨0, _⟩ => exact (rhs_blockDot_0 _ _).trans hk
    | ⟨1, _⟩ => exact rhs_blockDot_1 _ _)
  rw [el, er]

/-- The reset block is zero at every entry. -/
theorem resetBlock_apply (j : S512x1536.Idx) : k0_pay1 (F := Ideal) j = 0 := by
  unfold k0_pay1
  rw [shapeCast_self]
  exact Ideal.ofBits_zero_f32

/-- The accumulator update at entry (r, c). -/
theorem update_apply (x : Vec Ideal S512x512 .f32) (w mr acc : Vec Ideal S512x1536 .f32) (r : Fin 512) (c : Fin 1536) :
    k0_pay2 (F := Ideal) x w mr acc (ix2 r c) = acc (ix2 r c) + ∑ q : Fin 512, x (ix2 r q) * (w (ix2 q c) * mr (ix2 q c)) := by
  unfold k0_pay2
  simp only [shapeCast_self]
  refine (addf_apply _ _ _).trans ?_
  refine congrArg (acc (ix2 r c) + ·) ?_
  exact blockProduct_apply _ _ r c

/-- The output block at entry (r, c). -/
theorem outputBlock_apply (acc : Vec Ideal S512x1536 .f32) (bias : Vec Ideal S1x1536 .f32) (r : Fin 512) (c : Fin 1536) :
    k0_pay3 (F := Ideal) acc bias (ix2 r c) = acc (ix2 r c) + bias (ix2 0 c) := by
  unfold k0_pay3
  simp only [shapeCast_self]
  refine (addf_apply _ _ _).trans ?_
  refine congrArg (acc (ix2 r c) + ·) ?_
  exact broadcastTo_apply bias broadcasts_S1x1536_S512x1536 (ix2 r c) (ix2 0 c) (fun a => match a with
    | ⟨0, _⟩ => by show (0 : Nat) = if (1 : Nat) = 1 then 0 else _; rw [if_pos rfl]
    | ⟨1, _⟩ => by show c.val = if (1536 : Nat) = 1 then 0 else c.val; rw [if_neg (by decide)])

end Cert.MaskedEmbed.Kernel

end
-- ==== Proof.Blocks.lean ====
/-
  The blocks the kernel body reads, as entries of the arrays the region finds.

  The grid has 8 × 8 × 8 points, the gene block varying fastest: point `t` works on cell block `t / 64`, column block
  `t / 8 % 8` and gene block `t % 8`. A cell block is 512 cells, a gene block 512 genes, a column block 1536 columns.
  So at point `t`, entry (r, q) of the cells block is cell `512 (t / 64) + r`, gene `512 (t % 8) + q`; entry (q, c) of
  the weights block and of the mask block is gene `512 (t % 8) + q`, column `1536 (t / 8 % 8) + c`; entry (0, c) of the
  bias block is column `1536 (t / 8 % 8) + c` of the one bias row.
-/
import proofs.«131649_j3874060501841_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.MaskedEmbed.Kernel

open Cert.KernelIdeal Cert.KernelIdeal.Gen

/-- A point's number is below 512. -/
theorem point_lt (t : Fin cfg0.N) : t.val < 512 := lt_of_lt_of_eq t.isLt N_0

/-- The cell that row `r` of point `t`'s cell block is. -/
def cellOf (t : Fin cfg0.N) (r : Fin 512) : Fin 4096 := ⟨512 * (t.val / 64) + r.val, by have := point_lt t; have := r.isLt; omega⟩
/-- The gene that position `q` of point `t`'s gene block is. -/
def geneOf (t : Fin cfg0.N) (q : Fin 512) : Fin 4096 := ⟨512 * (t.val % 8) + q.val, by have := q.isLt; omega⟩
/-- The output column that column `c` of point `t`'s column block is. -/
def colOf (t : Fin cfg0.N) (c : Fin 1536) : Fin 12288 := ⟨1536 * (t.val / 8 % 8) + c.val, by have := c.isLt; omega⟩

/-! ## Which block each window reads at a point, decided once over the grid -/

theorem cells_index : ∀ t : Fin cfg0.N, win0_0.index t (0 : Fin 2) = t.val / 64 ∧ win0_0.index t (1 : Fin 2) = t.val % 8 :=
  (by decide +kernel : ∀ t : Fin grid0.N, win0_0.index t (0 : Fin 2) = t.val / 64 ∧ win0_0.index t (1 : Fin 2) = t.val % 8)
theorem weights_index : ∀ t : Fin cfg0.N, win0_1.index t (0 : Fin 2) = t.val % 8 ∧ win0_1.index t (1 : Fin 2) = t.val / 8 % 8 :=
  (by decide +kernel : ∀ t : Fin grid0.N, win0_1.index t (0 : Fin 2) = t.val % 8 ∧ win0_1.index t (1 : Fin 2) = t.val / 8 % 8)
theorem mask_index : ∀ t : Fin cfg0.N, win0_2.index t (0 : Fin 2) = t.val % 8 ∧ win0_2.index t (1 : Fin 2) = t.val / 8 % 8 :=
  (by decide +kernel : ∀ t : Fin grid0.N, win0_2.index t (0 : Fin 2) = t.val % 8 ∧ win0_2.index t (1 : Fin 2) = t.val / 8 % 8)
theorem bias_index : ∀ t : Fin cfg0.N, win0_3.index t (0 : Fin 2) = 0 ∧ win0_3.index t (1 : Fin 2) = t.val / 8 % 8 :=
  (by decide +kernel : ∀ t : Fin grid0.N, win0_3.index t (0 : Fin 2) = 0 ∧ win0_3.index t (1 : Fin 2) = t.val / 8 % 8)
theorem output_index : ∀ t : Fin cfg0.N, win0_4.index t (0 : Fin 2) = t.val / 64 ∧ win0_4.index t (1 : Fin 2) = t.val / 8 % 8 :=
  (by decide +kernel : ∀ t : Fin grid0.N, win0_4.index t (0 : Fin 2) = t.val / 64 ∧ win0_4.index t (1 : Fin 2) = t.val / 8 % 8)

/-! ## The blocks read at an entry, for any float values -/

variable {F : FTy → Type} [FloatOps F]
variable (m : (ℓ : Loc nD τ sig) → Buf (Elt F) ℓ)

theorem cellsBlock_apply (c : Dev nD) (t : Fin cfg0.N) (r q : Fin 512) :
    (iblk m c 0 t : Vec F S512x512 .f32) (ix2 r q) = (V m c main_v0 : Vec F S4096x4096 .f32) (ix2 (cellOf t r) (geneOf t q)) := by
  unfold iblk
  rw [View.read_apply]
  show V m c main_v0 (((cfg0.win 0).blk t).view.emb (ix2 r q)) = V m c main_v0 (ix2 (cellOf t r) (geneOf t q))
  refine congrArg (V m c main_v0) (funext fun a => Fin.ext ?_)
  match a with
  | ⟨0, _⟩ => show win0_0.index t 0 * 512 + 1 * r.val = 512 * (t.val / 64) + r.val; rw [(cells_index t).1]; omega
  | ⟨1, _⟩ => show win0_0.index t 1 * 512 + 1 * q.val = 512 * (t.val % 8) + q.val; rw [(cells_index t).2]; omega

theorem weightsBlock_apply (c : Dev nD) (t : Fin cfg0.N) (q : Fin 512) (cc : Fin 1536) :
    (iblk m c 1 t : Vec F S512x1536 .f32) (ix2 q cc) = (V m c main_v1 : Vec F S4096x12288 .f32) (ix2 (geneOf t q) (colOf t cc)) := by
  unfold iblk
  rw [View.read_apply]
  show V m c main_v1 (((cfg0.win 1).blk t).view.emb (ix2 q cc)) = V m c main_v1 (ix2 (geneOf t q) (colOf t cc))
  refine congrArg (V m c main_v1) (funext fun a => Fin.ext ?_)
  match a with
  | ⟨0, _⟩ => show win0_1.index t 0 * 512 + 1 * q.val = 512 * (t.val % 8) + q.val; rw [(weights_index t).1]; omega
  | ⟨1, _⟩ => show win0_1.index t 1 * 1536 + 1 * cc.val = 1536 * (t.val / 8 % 8) + cc.val; rw [(weights_index t).2]; omega

theorem maskBlock_apply (c : Dev nD) (t : Fin cfg0.N) (q : Fin 512) (cc : Fin 1536) :
    (iblk m c 2 t : Vec F S512x1536 .f32) (ix2 q cc) = (V m c main_v4 : Vec F S4096x12288 .f32) (ix2 (geneOf t q) (colOf t cc)) := by
  unfold iblk
  rw [View.read_apply]
  show V m c main_v4 (((cfg0.win 2).blk t).view.emb (ix2 q cc)) = V m c main_v4 (ix2 (geneOf t q) (colOf t cc))
  refine congrArg (V m c main_v4) (funext fun a => Fin.ext ?_)
  match a with
  | ⟨0, _⟩ => show win0_2.index t 0 * 512 + 1 * q.val = 512 * (t.val % 8) + q.val; rw [(mask_index t).1]; omega
  | ⟨1, _⟩ => show win0_2.index t 1 * 1536 + 1 * cc.val = 1536 * (t.val / 8 % 8) + cc.val; rw [(mask_index t).2]; omega

theorem biasBlock_apply (c : Dev nD) (t : Fin cfg0.N) (cc : Fin 1536) :
    (iblk m c 3 t : Vec F S1x1536 .f32) (ix2 0 cc) = (V m c main_v5 : Vec F S1x12288 .f32) (ix2 0 (colOf t cc)) := by
  unfold iblk
  rw [View.read_apply]
  show V m c main_v5 (((cfg0.win 3).blk t).view.emb (ix2 0 cc)) = V m c main_v5 (ix2 0 (colOf t cc))
  refine congrArg (V m c main_v5) (funext fun a => Fin.ext ?_)
  match a with
  | ⟨0, _⟩ => show win0_3.index t 0 * 1 + 1 * 0 = 0; rw [(bias_index t).1]
  | ⟨1, _⟩ => show win0_3.index t 1 * 1536 + 1 * cc.val = 1536 * (t.val / 8 % 8) + cc.val; rw [(bias_index t).2]; omega

end Cert.MaskedEmbed.Kernel

end
-- ==== Proof.Sums.lean ====
/-
  Finite sums taken in consecutive blocks, in any commutative additive monoid.

  A function on `Fin n` is extended by zero to every natural number. Then:
  the sum over the first `a` naturals plus one block of `w` consecutive terms is the sum over the first `a + w`;
  the sum over the first `n` naturals is the sum over `Fin n`;
  a function on `Fin N` that agrees with `f` below `n` and vanishes from `n` on has the sum of `f`.
  Only commutativity and associativity of `+` and `x + 0 = x` are used, so over the extended reals none of this asks
  a term to be finite.
-/
import Mathlib.Algebra.BigOperators.Fin

open scoped BigOperators

namespace Cert.MaskedEmbed

variable {M : Type*} [AddCommMonoid M]

/-- `f` on `Fin n`, and zero from `n` on. -/
def extendZero {n : ℕ} (f : Fin n → M) (k : ℕ) : M := if h : k < n then f ⟨k, h⟩ else 0

theorem extendZero_of_lt {n : ℕ} (f : Fin n → M) {k : ℕ} (h : k < n) : extendZero f k = f ⟨k, h⟩ := dif_pos h

/-- A prefix sum plus the next `w` terms is the longer prefix sum. -/
theorem prefix_add_block {n : ℕ} (f : Fin n → M) (a w : ℕ) (h : a + w ≤ n) :
    (∑ k ∈ Finset.range a, extendZero f k) + ∑ q : Fin w, f ⟨a + q.val, by have := q.isLt; omega⟩
      = ∑ k ∈ Finset.range (a + w), extendZero f k := by
  rw [Finset.sum_range_add, Finset.sum_range (fun q => extendZero f (a + q))]
  refine congrArg _ (Finset.sum_congr rfl fun q _ => ?_)
  exact (extendZero_of_lt f _).symm

/-- The prefix sum over all `n` naturals below `n` is the sum over `Fin n`. -/
theorem prefix_full {n : ℕ} (f : Fin n → M) : ∑ k ∈ Finset.range n, extendZero f k = ∑ k : Fin n, f k := by
  rw [Finset.sum_range]
  exact Finset.sum_congr rfl fun k _ => extendZero_of_lt f k.isLt

/-- Zero padding adds nothing: if `g` on `Fin N` is `f` below `n` and zero from `n` on, the two sums agree. -/
theorem sum_zero_padded {n N : ℕ} (hN : n ≤ N) (g : Fin N → M) (f : Fin n → M)
    (hin : ∀ k : Fin n, g ⟨k.val, lt_of_lt_of_le k.isLt hN⟩ = f k)
    (hout : ∀ k : Fin N, n ≤ k.val → g k = 0) : ∑ k, g k = ∑ k, f k := by
  rw [← prefix_full g, ← prefix_full f]
  obtain ⟨p, rfl⟩ := Nat.exists_eq_add_of_le hN
  rw [Finset.sum_range_add]
  have htail : ∑ x ∈ Finset.range p, extendZero g (n + x) = 0 := Finset.sum_eq_zero fun x hx => by
    have hx' : x < p := Finset.mem_range.mp hx
    rw [extendZero_of_lt g (by omega)]
    exact hout _ (Nat.le_add_right n x)
  rw [htail, add_zero]
  refine Finset.sum_congr rfl fun k hk => ?_
  have hk' : k < n := Finset.mem_range.mp hk
  rw [extendZero_of_lt g (by omega), extendZero_of_lt f hk']
  exact hin ⟨k, hk'⟩

end Cert.MaskedEmbed
-- ==== Proof.Spec.lean ====
/-
  What both programs compute, as one function of the argument arrays over the extended reals.

  For cells `R < 4096`, output columns `C < 12288` and genes `k < 4000`, with column `C` belonging to patch `C / 192`:

      embed x mask W b (R, C) = (∑ k, x (R, k) · (W (k, C) · mask (k, C / 192))) + b C.

  The kernel works on arrays whose gene axis is padded with zeros from 4000 to 4096 and contracts over all 4096:
  `embedPadded`. A padded gene contributes `0 · (0 · 0) = 0`, so the two agree (`embedPadded_eq_embed`); the law is
  `0 · y = 0`, which holds for every extended real `y`, so no entry need be finite.
  `partialDot` is the contraction restricted to the first `a` genes: what a running accumulator holds part way.
-/
import Idealize.ShloMosaic.PureOps.Ideal
import Idealize.ShloMosaic.Lib.ValueIdx
import proofs.«131649_j3874060501841_1_alg».proof.Proof.Sums

noncomputable section

open scoped BigOperators
open Idealize.ShloMosaic Idealize.ShloMosaic.ValueIdx

namespace Cert.MaskedEmbed

/-- An extended-real matrix of literal extents. -/
abbrev Mat (a b : ℕ) : Type := (⟨2, ![a, b]⟩ : Shape).Idx → EReal
/-- An extended-real vector of literal extent. -/
abbrev Row (a : ℕ) : Type := (⟨1, ![a]⟩ : Shape).Idx → EReal

/-- The patch an output column belongs to: 192 consecutive columns per patch. -/
def patchOf (C : Fin 12288) : Fin 64 := ⟨C.val / 192, by have := C.isLt; omega⟩

/-- The masked linear map plus bias at cell `R`, column `C`. -/
def embedAt (x : Mat 4096 4000) (mask : Mat 4000 64) (W : Mat 4000 12288) (b : Row 12288) (R : Fin 4096) (C : Fin 12288) :
    EReal :=
  (∑ k : Fin 4000, x (ix2 R k) * (W (ix2 k C) * mask (ix2 k (patchOf C)))) + b (ix1 C)

/-- The same as an array. -/
def embed (x : Mat 4096 4000) (mask : Mat 4000 64) (W : Mat 4000 12288) (b : Row 12288) : Mat 4096 12288 :=
  fun J => embedAt x mask W b (J 0) (J 1)

/-- One term of the contraction over the padded gene axis. -/
def pterm (X : Mat 4096 4096) (Wp Mp : Mat 4096 12288) (R : Fin 4096) (C : Fin 12288) (k : Fin 4096) : EReal :=
  X (ix2 R k) * (Wp (ix2 k C) * Mp (ix2 k C))

/-- The same map over the padded arrays at cell `R`, column `C`: the contraction runs over all 4096 padded genes, the
    bias is a one-row matrix. -/
def embedPaddedAt (X : Mat 4096 4096) (Wp Mp : Mat 4096 12288) (B : Mat 1 12288) (R : Fin 4096) (C : Fin 12288) : EReal :=
  (∑ k : Fin 4096, pterm X Wp Mp R C k) + B (ix2 0 C)

/-- The same as an array. -/
def embedPadded (X : Mat 4096 4096) (Wp Mp : Mat 4096 12288) (B : Mat 1 12288) : Mat 4096 12288 :=
  fun J => embedPaddedAt X Wp Mp B (J 0) (J 1)

/-- The contraction over the first `a` padded genes only. -/
def partialDot (X : Mat 4096 4096) (Wp Mp : Mat 4096 12288) (R : Fin 4096) (C : Fin 12288) (a : ℕ) : EReal :=
  ∑ k ∈ Finset.range a, extendZero (pterm X Wp Mp R C) k

theorem partialDot_zero (X : Mat 4096 4096) (Wp Mp : Mat 4096 12288) (R : Fin 4096) (C : Fin 12288) :
    partialDot X Wp Mp R C 0 = 0 := Finset.sum_range_zero _

/-- Adding the next block of 512 genes. -/
theorem partialDot_add_block (X : Mat 4096 4096) (Wp Mp : Mat 4096 12288) (R : Fin 4096) (C : Fin 12288) (a : ℕ)
    (h : a + 512 ≤ 4096) :
    partialDot X Wp Mp R C a + ∑ q : Fin 512, pterm X Wp Mp R C ⟨a + q.val, by have := q.isLt; omega⟩
      = partialDot X Wp Mp R C (a + 512) :=
  prefix_add_block (pterm X Wp Mp R C) a 512 h

/-- After all eight blocks the contraction is complete. -/
theorem partialDot_full (X : Mat 4096 4096) (Wp Mp : Mat 4096 12288) (R : Fin 4096) (C : Fin 12288) :
    partialDot X Wp Mp R C 4096 = ∑ k : Fin 4096, pterm X Wp Mp R C k :=
  prefix_full (pterm X Wp Mp R C)

/-- Zero-padded genes contribute nothing: over arrays that are `x`, `W` and the patch-expanded `mask` below gene 4000
    and zero from there on, with the bias as a one-row matrix, the padded map is the map. -/
theorem embedPadded_eq_embed (X : Mat 4096 4096) (Wp Mp : Mat 4096 12288) (B : Mat 1 12288)
    (x : Mat 4096 4000) (mask : Mat 4000 64) (W : Mat 4000 12288) (b : Row 12288)
    (hX : ∀ (R : Fin 4096) (k : Fin 4096), X (ix2 R k) = if h : k.val < 4000 then x (ix2 R ⟨k.val, h⟩) else 0)
    (hW : ∀ (k : Fin 4096) (C : Fin 12288), Wp (ix2 k C) = if h : k.val < 4000 then W (ix2 ⟨k.val, h⟩ C) else 0)
    (hM : ∀ (k : Fin 4096) (C : Fin 12288),
      Mp (ix2 k C) = if h : k.val < 4000 then mask (ix2 ⟨k.val, h⟩ (patchOf C)) else 0)
    (hB : ∀ C : Fin 12288, B (ix2 0 C) = b (ix1 C)) :
    embedPadded X Wp Mp B = embed x mask W b := by
  funext J
  obtain ⟨R, C, rfl⟩ : ∃ (R : Fin 4096) (C : Fin 12288), J = ix2 R C := ⟨J 0, J 1, eq_ix2 J⟩
  show embedPaddedAt X Wp Mp B R C = embedAt x mask W b R C
  unfold embedPaddedAt embedAt
  rw [hB]
  refine congrArg (· + b (ix1 C)) ?_
  refine sum_zero_padded (n := 4000) (N := 4096) (by decide) _ _ (fun k => ?_) (fun k hk => ?_)
  · unfold pterm
    rw [hX, hW, hM, dif_pos k.isLt, dif_pos k.isLt, dif_pos k.isLt]
  · unfold pterm
    rw [hX, dif_neg (by omega), zero_mul]

end Cert.MaskedEmbed

end
-- ==== Proof.HostPre.lean ====
/-
  What the kernel region finds in its four input arrays, entry by entry over the extended reals.

  Before the region the program pads the gene axis of the cells, the weights and the mask from 4000 to 4096 with the
  integer zero converted to a float, expands the padded mask from one column per patch to 192 columns per patch
  (column `C` reads patch `C / 192`), and views the bias vector as a one-row matrix. So at gene `k`:

    cells   (R, k) = x (R, k)               below gene 4000, and 0 from there on;
    weights (k, C) = W (k, C)               below gene 4000, and 0 from there on;
    mask    (k, C) = mask (k, C / 192)      below gene 4000, and 0 from there on;
    bias    (0, C) = b C.
-/
import proofs.«131649_j3874060501841_1_alg».proof.Proof.Gen.KernelIdeal.Frame
import proofs.«131649_j3874060501841_1_alg».proof.Proof.Spec
import Idealize.ShloMosaic.Lib.StableHlo.Run
import Idealize.ShloMosaic.Lib.Pipeline.Value
import Idealize.ShloMosaic.Lib.KernelVsHost

set_option maxRecDepth 16384

noncomputable section

open Idealize.ShloMosaic Idealize.ShloMosaic.TcCoe Idealize.ShloMosaic.Tactic Idealize.SL.Sem
open Idealize.ShloMosaic.StableHlo Idealize.ShloMosaic.ValueIdx

namespace Cert.MaskedEmbed.Kernel

open Cert.KernelIdeal Cert.KernelIdeal.Gen Cert.MaskedEmbed

/-! ## The four arrays as terms, for any float values -/

section AnyValues
variable {F : FTy → Type} [FloatOps F]
variable (m : (ℓ : Loc nD τ sig) → Buf (Elt F) ℓ)

/-- The value the pads fill with: the integer zero, converted. -/
abbrev padValue : FVec F S_ .f32 := sitofp .f32 (constantI S_ 32 0#32)

/-- The cells, padded along genes (axis 1). -/
theorem entry_cells (c : Dev nD) : (V m c main_v0 : S4096x4096.Idx → Elt F .f32)
    = pad S4096x4096 ![0, 0] ![0, 96] ![0, 0] (m ((c : Thread nD τ).loc main_arg0)) (padValue (F := F))
        pads_S4096x4000_S4096x4096_000_0960 h_S_ := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- The weights, padded along genes (axis 0). -/
theorem entry_weights (c : Dev nD) : (V m c main_v1 : S4096x12288.Idx → Elt F .f32)
    = pad S4096x12288 ![0, 0] ![96, 0] ![0, 0] (m ((c : Thread nD τ).loc main_arg2)) (padValue (F := F))
        pads_S4000x12288_S4096x12288_0960_000 h_S_ := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- The mask, padded along genes and expanded to one column per output column. -/
theorem entry_mask (c : Dev nD) : (V m c main_v4 : S4096x12288.Idx → Elt F .f32)
    = shapeCast S4096x12288 (broadcastInDim S4096x64x192 ![0, 1] bcast_S4096x64_S4096x64x192_0_1
        (pad S4096x64 ![0, 0] ![96, 0] ![0, 0] (m ((c : Thread nD τ).loc main_arg1)) (padValue (F := F))
          pads_S4000x64_S4096x64_0960_000 h_S_)) shapeCasts_S4096x64x192_S4096x12288 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- The bias as a one-row matrix. -/
theorem entry_bias (c : Dev nD) : (V m c main_v5 : S1x12288.Idx → Elt F .f32)
    = shapeCast S1x12288 (m ((c : Thread nD τ).loc main_arg3)) shapeCasts_S12288_S1x12288 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

end AnyValues

/-! ## Read at an index, over the extended reals -/

variable (m : (ℓ : Loc nD τ sig) → Buf (Elt Ideal) ℓ)

/-- The four argument arrays, as extended-real arrays of their literal extents. -/
abbrev cellsArg (c : Dev nD) : Mat 4096 4000 := m ((c : Thread nD τ).loc main_arg0)
abbrev maskArg (c : Dev nD) : Mat 4000 64 := m ((c : Thread nD τ).loc main_arg1)
abbrev weightsArg (c : Dev nD) : Mat 4000 12288 := m ((c : Thread nD τ).loc main_arg2)
abbrev biasArg (c : Dev nD) : Row 12288 := m ((c : Thread nD τ).loc main_arg3)

/-- The four arrays the region reads, likewise. -/
abbrev cellsIn (c : Dev nD) : Mat 4096 4096 := V m c main_v0
abbrev weightsIn (c : Dev nD) : Mat 4096 12288 := V m c main_v1
abbrev maskIn (c : Dev nD) : Mat 4096 12288 := V m c main_v4
abbrev biasIn (c : Dev nD) : Mat 1 12288 := V m c main_v5

/-- The pad value is the extended real zero. -/
theorem padValue_eq (i : S_.Idx) : padValue (F := Ideal) i = 0 := sitofp_zero

theorem cells_apply (c : Dev nD) (R k : Fin 4096) :
    cellsIn m c (ix2 R k) = if h : k.val < 4000 then cellsArg m c (ix2 R ⟨k.val, h⟩) else 0 := by
  show (V m c main_v0 : S4096x4096.Idx → Elt Ideal .f32) (ix2 R k) = _
  rw [entry_cells m c]
  by_cases h : k.val < 4000
  · rw [dif_pos h]
    exact pad_apply_of_inside _ _ _ _ _ pads_S4096x4000_S4096x4096_000_0960 h_S_ (ix2 R k) (ix2 R ⟨k.val, h⟩) (fun a => match a with
      | ⟨0, _⟩ => by show R.val = 0 + R.val * (0 + 1); omega
      | ⟨1, _⟩ => by show k.val = 0 + k.val * (0 + 1); omega)
  · rw [dif_neg h]
    refine (pad_apply_of_not_inside _ _ _ _ _ pads_S4096x4000_S4096x4096_000_0960 h_S_ (ix2 R k) 1 (by
      show ¬((0 : Nat) ≤ k.val ∧ (k.val - 0) % (0 + 1) = 0 ∧ (k.val - 0) / (0 + 1) < 4000); omega)).trans ?_
    exact padValue_eq _

theorem weights_apply (c : Dev nD) (k : Fin 4096) (C : Fin 12288) :
    weightsIn m c (ix2 k C) = if h : k.val < 4000 then weightsArg m c (ix2 ⟨k.val, h⟩ C) else 0 := by
  show (V m c main_v1 : S4096x12288.Idx → Elt Ideal .f32) (ix2 k C) = _
  rw [entry_weights m c]
  by_cases h : k.val < 4000
  · rw [dif_pos h]
    exact pad_apply_of_inside _ _ _ _ _ pads_S4000x12288_S4096x12288_0960_000 h_S_ (ix2 k C) (ix2 ⟨k.val, h⟩ C) (fun a => match a with
      | ⟨0, _⟩ => by show k.val = 0 + k.val * (0 + 1); omega
      | ⟨1, _⟩ => by show C.val = 0 + C.val * (0 + 1); omega)
  · rw [dif_neg h]
    refine (pad_apply_of_not_inside _ _ _ _ _ pads_S4000x12288_S4096x12288_0960_000 h_S_ (ix2 k C) 0 (by
      show ¬((0 : Nat) ≤ k.val ∧ (k.val - 0) % (0 + 1) = 0 ∧ (k.val - 0) / (0 + 1) < 4000); omega)).trans ?_
    exact padValue_eq _

theorem mask_apply (c : Dev nD) (k : Fin 4096) (C : Fin 12288) :
    maskIn m c (ix2 k C) = if h : k.val < 4000 then maskArg m c (ix2 ⟨k.val, h⟩ (patchOf C)) else 0 := by
  show (V m c main_v4 : S4096x12288.Idx → Elt Ideal .f32) (ix2 k C) = _
  rw [entry_mask m c]
  have hC : C.val < 12288 := C.isLt
  have hk : k.val < 4096 := k.isLt
  -- the reshape: column C of row k is entry (k, C / 192, C % 192) of the expanded mask
  refine (shapeCast_apply _ shapeCasts_S4096x64x192_S4096x12288 (ix2 k C)
    (ix3 k (patchOf C) (⟨C.val % 192, Nat.mod_lt _ (by decide)⟩ : Fin 192)) (by
      rw [Shape.rowMajor_val_three, Shape.rowMajor_val_two]
      show (k.val * 64 + C.val / 192) * 192 + C.val % 192 = k.val * 12288 + C.val
      omega)).trans ?_
  -- the expansion: every one of a patch's 192 columns reads the patch's mask entry
  refine (broadcastInDim_apply _ bcast_S4096x64_S4096x64x192_0_1 _ _ (ix2 k (patchOf C)) (fun a => match a with
    | ⟨0, _⟩ => by show k.val = if (4096 : Nat) = 1 then 0 else k.val; rw [if_neg (by decide)]
    | ⟨1, _⟩ => by show (patchOf C).val = if (64 : Nat) = 1 then 0 else (patchOf C).val; rw [if_neg (by decide)])).trans ?_
  by_cases h : k.val < 4000
  · rw [dif_pos h]
    exact pad_apply_of_inside _ _ _ _ _ pads_S4000x64_S4096x64_0960_000 h_S_ (ix2 k (patchOf C)) (ix2 ⟨k.val, h⟩ (patchOf C)) (fun a => match a with
      | ⟨0, _⟩ => by show k.val = 0 + k.val * (0 + 1); omega
      | ⟨1, _⟩ => by show (patchOf C).val = 0 + (patchOf C).val * (0 + 1); omega)
  · rw [dif_neg h]
    refine (pad_apply_of_not_inside _ _ _ _ _ pads_S4000x64_S4096x64_0960_000 h_S_ (ix2 k (patchOf C)) 0 (by
      show ¬((0 : Nat) ≤ k.val ∧ (k.val - 0) % (0 + 1) = 0 ∧ (k.val - 0) / (0 + 1) < 4000); omega)).trans ?_
    exact padValue_eq _

theorem bias_apply (c : Dev nD) (C : Fin 12288) :
    biasIn m c (ix2 0 C) = biasArg m c (ix1 C) := by
  show (V m c main_v5 : S1x12288.Idx → Elt Ideal .f32) (ix2 0 C) = _
  rw [entry_bias m c]
  exact shapeCast_apply _ shapeCasts_S12288_S1x12288 (ix2 0 C) (ix1 C) (by
    rw [Shape.rowMajor_val_one, Shape.rowMajor_val_two]
    show C.val = 0 * 12288 + C.val
    omega)

end Cert.MaskedEmbed.Kernel

end
-- ==== Proof.Invariant.lean ====
/-
  What the accumulator holds after every grid point, and what the last gene block writes out.

  Write X, Wp, Mp for the cells, weights and expanded mask as the region finds them (gene axis padded to 4096). After
  point `t` — cell block `t / 64`, column block `t / 8 % 8`, gene block `t % 8` — entry (r, c) of the accumulator is
  the contraction over the first `512 (t % 8 + 1)` padded genes at that cell and column:

      acc_t (r, c) = ∑ k < 512 (t % 8 + 1), X (R, k) · (Wp (k, C) · Mp (k, C)),   R = 512 (t / 64) + r,  C = 1536 (t / 8 % 8) + c.

  By induction on the point: a first gene block starts from the reset value 0, the empty contraction, and adds its 512
  terms; a later gene block starts from what the point before left — same cell and column blocks, one gene block
  fewer — and adds its 512 terms. Each step only appends a block of terms to a sum, so no term need be finite.
  At a last gene block all 4096 genes are in, and the output block is that full contraction plus the bias.
-/
import proofs.«131649_j3874060501841_1_alg».proof.Proof.Pieces
import proofs.«131649_j3874060501841_1_alg».proof.Proof.Payload
import proofs.«131649_j3874060501841_1_alg».proof.Proof.Blocks
import proofs.«131649_j3874060501841_1_alg».proof.Proof.HostPre

set_option maxRecDepth 16384

noncomputable section

open scoped BigOperators
open Idealize.ShloMosaic Idealize.ShloMosaic.TcCoe Idealize.SL.Sem Idealize.ShloMosaic.ValueIdx

namespace Cert.MaskedEmbed.Kernel

open Cert.KernelIdeal Cert.KernelIdeal.Gen Cert.MaskedEmbed

variable (m : (ℓ : Loc nD τ sig) → Buf (Elt Ideal) ℓ)

/-- The four blocks point `t` reads, and the accumulator and output staging contents after point `n`, each at its
    literal type. -/
abbrev xblk (c : Dev nD) (t : Fin cfg0.N) : Vec Ideal S512x512 .f32 := iblk m c 0 t
abbrev wblk (c : Dev nD) (t : Fin cfg0.N) : Vec Ideal S512x1536 .f32 := iblk m c 1 t
abbrev mrblk (c : Dev nD) (t : Fin cfg0.N) : Vec Ideal S512x1536 .f32 := iblk m c 2 t
abbrev bblk (c : Dev nD) (t : Fin cfg0.N) : Vec Ideal S1x1536 .f32 := iblk m c 3 t
abbrev accAfter (c : Dev nD) (n : ℕ) (hn : n < cfg0.N) : Vec Ideal S512x1536 .f32 := (outsAt0 m c n hn).2
abbrev outAfter (c : Dev nD) (n : ℕ) (hn : n < cfg0.N) : Vec Ideal S512x1536 .f32 := (outsAt0 m c n hn).1

/-- The contraction over the first `a` padded genes, at the cell and column that entry (r, c) of point `t`'s blocks is. -/
abbrev partialAt (c : Dev nD) (t : Fin cfg0.N) (r : Fin 512) (cc : Fin 1536) (a : ℕ) : EReal :=
  partialDot (cellsIn m c) (weightsIn m c) (maskIn m c) (cellOf t r) (colOf t cc) a

/-- The block reads, restated over the blocks' names. -/
theorem xblk_apply (c : Dev nD) (t : Fin cfg0.N) (r q : Fin 512) :
    xblk m c t (ix2 r q) = cellsIn m c (ix2 (cellOf t r) (geneOf t q)) := cellsBlock_apply m c t r q
theorem wblk_apply (c : Dev nD) (t : Fin cfg0.N) (q : Fin 512) (cc : Fin 1536) :
    wblk m c t (ix2 q cc) = weightsIn m c (ix2 (geneOf t q) (colOf t cc)) := weightsBlock_apply m c t q cc
theorem mrblk_apply (c : Dev nD) (t : Fin cfg0.N) (q : Fin 512) (cc : Fin 1536) :
    mrblk m c t (ix2 q cc) = maskIn m c (ix2 (geneOf t q) (colOf t cc)) := maskBlock_apply m c t q cc
theorem bblk_apply (c : Dev nD) (t : Fin cfg0.N) (cc : Fin 1536) :
    bblk m c t (ix2 0 cc) = biasIn m c (ix2 0 (colOf t cc)) := biasBlock_apply m c t cc

/-- ONE UPDATE: from the contraction over the gene blocks before `t`'s, the update leaves the contraction through `t`'s. -/
theorem update_step (c : Dev nD) (t : Fin cfg0.N) (acc : Vec Ideal S512x1536 .f32) (r : Fin 512) (cc : Fin 1536)
    (hacc : acc (ix2 r cc) = partialAt m c t r cc (512 * (t.val % 8))) :
    k0_pay2 (F := Ideal) (xblk m c t) (wblk m c t) (mrblk m c t) acc (ix2 r cc) = partialAt m c t r cc (512 * (t.val % 8 + 1)) := by
  refine (update_apply (xblk m c t) (wblk m c t) (mrblk m c t) acc r cc).trans ?_
  rw [hacc]
  have hsum : ∑ q : Fin 512, xblk m c t (ix2 r q) * (wblk m c t (ix2 q cc) * mrblk m c t (ix2 q cc))
      = ∑ q : Fin 512, pterm (cellsIn m c) (weightsIn m c) (maskIn m c) (cellOf t r) (colOf t cc)
          ⟨512 * (t.val % 8) + q.val, by have := q.isLt; omega⟩ :=
    Finset.sum_congr rfl fun q _ => by
      rw [xblk_apply m c t r q, wblk_apply m c t q cc, mrblk_apply m c t q cc]
      rfl
  rw [hsum, show 512 * (t.val % 8 + 1) = 512 * (t.val % 8) + 512 by omega]
  exact partialDot_add_block _ _ _ _ _ _ (by omega)

/-- A first gene block: the reset value is the empty contraction, so the update leaves the first 512 genes. -/
theorem acc_first (c : Dev nD) (t : Fin cfg0.N) (h0 : t.val % 8 = 0) (h1 : ¬t.val % 8 = 7) (r : Fin 512) (cc : Fin 1536) :
    accAfter m c t.val t.isLt (ix2 r cc) = partialAt m c t r cc (512 * (t.val % 8 + 1)) := by
  show (outsAt0 m c t.val t.isLt).2 (ix2 r cc) = _
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (xblk m c t) (wblk m c t) (mrblk m c t) (bblk m c t)) (ix2 r cc)).trans ?_
  refine update_step m c t (k0_pay1 (F := Ideal)) r cc ?_
  rw [resetBlock_apply, h0]
  exact (partialDot_zero _ _ _ _ _).symm

/-- The point before a later gene block works on the same cells and columns, one gene block earlier. -/
theorem prev_same (t : Fin cfg0.N) (h0 : ¬t.val % 8 = 0) (r : Fin 512) (cc : Fin 1536) :
    cellOf ⟨t.val - 1, Nat.lt_of_le_of_lt (Nat.sub_le _ _) t.isLt⟩ r = cellOf t r
      ∧ colOf ⟨t.val - 1, Nat.lt_of_le_of_lt (Nat.sub_le _ _) t.isLt⟩ cc = colOf t cc
      ∧ (t.val - 1) % 8 + 1 = t.val % 8 := by
  refine ⟨Fin.ext ?_, Fin.ext ?_, ?_⟩
  · show 512 * ((t.val - 1) / 64) + r.val = 512 * (t.val / 64) + r.val; omega
  · show 1536 * ((t.val - 1) / 8 % 8) + cc.val = 1536 * (t.val / 8 % 8) + cc.val; omega
  · omega

/-- A later gene block, whether or not it is the last: from what the point before left. -/
theorem acc_later (c : Dev nD) (t : Fin cfg0.N) (h0 : ¬t.val % 8 = 0)
    (ih : ∀ (r : Fin 512) (cc : Fin 1536), accAfter m c (t.val - 1) (Nat.lt_of_le_of_lt (Nat.sub_le _ _) t.isLt) (ix2 r cc)
      = partialAt m c ⟨t.val - 1, Nat.lt_of_le_of_lt (Nat.sub_le _ _) t.isLt⟩ r cc (512 * ((t.val - 1) % 8 + 1)))
    (r : Fin 512) (cc : Fin 1536) :
    accAfter m c t.val t.isLt (ix2 r cc) = partialAt m c t r cc (512 * (t.val % 8 + 1)) := by
  have hprev : accAfter m c (t.val - 1) (Nat.lt_of_le_of_lt (Nat.sub_le _ _) t.isLt) (ix2 r cc)
      = partialAt m c t r cc (512 * (t.val % 8)) := by
    obtain ⟨e1, e2, e3⟩ := prev_same t h0 r cc
    rw [ih r cc, e3]
    show partialDot _ _ _ (cellOf _ r) (colOf _ cc) _ = partialDot _ _ _ (cellOf t r) (colOf t cc) _
    rw [e1, e2]
  show (outsAt0 m c t.val t.isLt).2 (ix2 r cc) = _
  by_cases h1 : t.val % 8 = 7
  · rw [outsAt0_C m c t h0 h1]
    dsimp only
    refine (congrFun (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (xblk m c t) (wblk m c t) (mrblk m c t) (bblk m c t) (accAfter m c (t.val - 1) (Nat.lt_of_le_of_lt (Nat.sub_le _ _) t.isLt))) (ix2 r cc)).trans ?_
    exact update_step m c t _ r cc hprev
  · rw [outsAt0_B m c t h0 h1]
    dsimp only
    refine (congrFun (scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h))
      (xblk m c t) (wblk m c t) (mrblk m c t) (bblk m c t) (accAfter m c (t.val - 1) (Nat.lt_of_le_of_lt (Nat.sub_le _ _) t.isLt))) (ix2 r cc)).trans ?_
    exact update_step m c t _ r cc hprev

/-- THE INVARIANT, at every point: the accumulator holds the contraction through the point's gene block. -/
theorem acc_invariant (c : Dev nD) : ∀ (n : ℕ) (hn : n < cfg0.N) (r : Fin 512) (cc : Fin 1536),
    accAfter m c n hn (ix2 r cc) = partialAt m c ⟨n, hn⟩ r cc (512 * (n % 8 + 1))
  | 0, hn, r, cc => acc_first m c ⟨0, hn⟩ rfl (by show ¬(0 % 8 = 7); decide) r cc
  | n + 1, hn, r, cc => by
    by_cases h0 : (n + 1) % 8 = 0
    · exact acc_first m c ⟨n + 1, hn⟩ h0 (by show ¬(n + 1) % 8 = 7; omega) r cc
    · exact acc_later m c ⟨n + 1, hn⟩ h0 (fun r' cc' => acc_invariant c n (Nat.lt_of_succ_lt hn) r' cc') r cc

/-- THE OUTPUT BLOCK: a last gene block writes, at entry (r, c), the padded map at that cell and column. -/
theorem output_apply (c : Dev nD) (t : Fin cfg0.N) (h1 : t.val % 8 = 7) (r : Fin 512) (cc : Fin 1536) :
    outAfter m c t.val t.isLt (ix2 r cc)
      = embedPaddedAt (cellsIn m c) (weightsIn m c) (maskIn m c) (biasIn m c) (cellOf t r) (colOf t cc) := by
  have h0 : ¬t.val % 8 = 0 := by omega
  have hprev : accAfter m c (t.val - 1) (Nat.lt_of_le_of_lt (Nat.sub_le _ _) t.isLt) (ix2 r cc)
      = partialAt m c t r cc (512 * (t.val % 8)) := by
    obtain ⟨e1, e2, e3⟩ := prev_same t h0 r cc
    rw [acc_invariant m c (t.val - 1) _ r cc, e3]
    show partialDot _ _ _ (cellOf _ r) (colOf _ cc) _ = partialDot _ _ _ (cellOf t r) (colOf t cc) _
    rw [e1, e2]
  show (outsAt0 m c t.val t.isLt).1 (ix2 r cc) = _
  rw [outsAt0_C m c t h0 h1]
  dsimp only
  refine (congrFun (output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (xblk m c t) (wblk m c t) (mrblk m c t) (bblk m c t) (accAfter m c (t.val - 1) (Nat.lt_of_le_of_lt (Nat.sub_le _ _) t.isLt))) (ix2 r cc)).trans ?_
  refine (outputBlock_apply _ (bblk m c t) r cc).trans ?_
  rw [update_step m c t _ r cc hprev, h1]
  show partialDot (cellsIn m c) (weightsIn m c) (maskIn m c) (cellOf t r) (colOf t cc) 4096 + bblk m c t (ix2 0 cc) = _
  rw [partialDot_full, bblk_apply m c t cc]
  rfl

end Cert.MaskedEmbed.Kernel

end
-- ==== Proof.KernelValue.lean ====
/-
  The kernel's result array, as one function of the argument arrays.

  Point `t` writes its output block back exactly when it is a last gene block (`t % 8 = 7`), and what it writes is the
  padded map at the block's cells and columns (the invariant's last step). Output block (i, j) belongs to point
  `(8 i + j) 8 + 7`, so every entry of the 4096 × 12288 array lies in some written block: the array ends holding the
  padded map of the arrays the region found, which is the map of the arguments because zero-padded genes add nothing.
  The lines after the region view that array as 4096 × 192 × 64 and swap the last two axes.
-/
import proofs.«131649_j3874060501841_1_alg».proof.Proof.Invariant
import Idealize.ShloMosaic.Lib.StableHlo.Run

set_option maxRecDepth 16384

noncomputable section

open scoped BigOperators
open Idealize.ShloMosaic Idealize.ShloMosaic.TcCoe Idealize.ShloMosaic.Tactic Idealize.SL.Sem
open Idealize.ShloMosaic.StableHlo Idealize.ShloMosaic.ValueIdx
open Idealize.ShloMosaic.Pipeline (Dat)

namespace Cert.MaskedEmbed.Kernel

open Cert.KernelIdeal Cert.KernelIdeal.Gen Cert.MaskedEmbed

variable (m : (ℓ : Loc nD τ sig) → Buf (Elt Ideal) ℓ) (ρ : Dev nD → PrngReg)

/-- The padded map of the arrays the region finds. -/
abbrev paddedResult (c : Dev nD) : Mat 4096 12288 :=
  embedPadded (cellsIn m c) (weightsIn m c) (maskIn m c) (biasIn m c)

/-- The map of the argument arrays. -/
abbrev result (c : Dev nD) : Mat 4096 12288 :=
  embed (cellsArg m c) (maskArg m c) (weightsArg m c) (biasArg m c)

/-- Entry (r, c) of point `t`'s output block is cell `512 (t / 64) + r`, column `1536 (t / 8 % 8) + c` of the array. -/
theorem outBlock_emb (t : Fin cfg0.N) (r : Fin 512) (cc : Fin 1536) :
    ((cfg0.win 4).blk t).view.emb (ix2 r cc) = ix2 (cellOf t r) (colOf t cc) := by
  funext a; apply Fin.ext
  match a with
  | ⟨0, _⟩ => show win0_4.index t 0 * 512 + 1 * r.val = 512 * (t.val / 64) + r.val; rw [(output_index t).1]; omega
  | ⟨1, _⟩ => show win0_4.index t 1 * 1536 + 1 * cc.val = 1536 * (t.val / 8 % 8) + cc.val; rw [(output_index t).2]; omega

/-- WHAT A LAST GENE BLOCK WRITES BACK is its block of the padded map. -/
theorem flushed_eq (c : Dev nD) (t : Fin cfg0.N) (hf : (cfg0.win 4).flush t = true) :
    (dats m 0 c).flushed 4 t = ((cfg0.win 4).blk t).view.read (Elt Ideal) (paddedResult m c) := by
  have h1 : t.val % 8 = 7 := (flush0_4 t).mp hf
  show (cfg0.win 4).cut (grid0.coords t) ((dats m 0 c).after 4 t) = _
  rw [after0_4]
  show (outAfter m c t.val t.isLt : Vec Ideal S512x1536 .f32)
    = fun j : S512x1536.Idx => paddedResult m c (((cfg0.win 4).blk t).view.emb j)
  funext j
  obtain ⟨r, cc, rfl⟩ : ∃ (r : Fin 512) (cc : Fin 1536), j = ix2 r cc := ⟨j 0, j 1, eq_ix2 j⟩
  rw [output_apply m c t h1 r cc, outBlock_emb t r cc]
  rfl

/-- An entry of the array is in point `t`'s output block iff each coordinate is in the block's range. -/
theorem mem_outBlock (t : Fin cfg0.N) (i : S4096x12288.Idx) :
    i ∈ ((cfg0.win 4).blk t).view.set ↔ ∀ a : Fin 2, win0_4.index t a * S512x1536.size a ≤ (i a).val
      ∧ (i a).val < win0_4.index t a * S512x1536.size a + S512x1536.size a := by
  show i ∈ ((View.whole main_v6).slice (win0_4.rect t)).set ↔ _
  rw [View.set_slice_whole, Rect.mem_set_unit]
  exact Iff.rfl

/-- EVERY ENTRY IS WRITTEN: entry (R, C) lies in the block of the last gene block of cell block `R / 512`, column
    block `C / 1536`. -/
theorem covered (i : S4096x12288.Idx) :
    ∃ t : Fin cfg0.N, (cfg0.win 4).flush t = true ∧ i ∈ ((cfg0.win 4).blk t).view.set := by
  have hi0 : (i 0).val < 4096 := (i 0).isLt
  have hi1 : (i 1).val < 12288 := (i 1).isLt
  have hN : cfg0.N = 512 := N_0
  have hlt : ((i 0).val / 512 * 8 + (i 1).val / 1536) * 8 + 7 < cfg0.N := by rw [hN]; omega
  refine ⟨⟨((i 0).val / 512 * 8 + (i 1).val / 1536) * 8 + 7, hlt⟩, (flush0_4 _).mpr (by show (((i 0).val / 512 * 8 + (i 1).val / 1536) * 8 + 7) % 8 = 7; omega), ?_⟩
  rw [mem_outBlock]
  obtain ⟨e0, e1⟩ := output_index ⟨((i 0).val / 512 * 8 + (i 1).val / 1536) * 8 + 7, hlt⟩
  intro a
  match a with
  | ⟨0, _⟩ =>
    show win0_4.index _ 0 * 512 ≤ (i 0).val ∧ (i 0).val < win0_4.index _ 0 * 512 + 512
    rw [e0]; show (((i 0).val / 512 * 8 + (i 1).val / 1536) * 8 + 7) / 64 * 512 ≤ (i 0).val ∧ (i 0).val < (((i 0).val / 512 * 8 + (i 1).val / 1536) * 8 + 7) / 64 * 512 + 512
    omega
  | ⟨1, _⟩ =>
    show win0_4.index _ 1 * 1536 ≤ (i 1).val ∧ (i 1).val < win0_4.index _ 1 * 1536 + 1536
    rw [e1]; show (((i 0).val / 512 * 8 + (i 1).val / 1536) * 8 + 7) / 8 % 8 * 1536 ≤ (i 1).val ∧ (i 1).val < (((i 0).val / 512 * 8 + (i 1).val / 1536) * 8 + 7) / 8 % 8 * 1536 + 1536
    omega

/-- THE ARRAY after the region: the padded map of what the region found … -/
theorem final_padded (c : Dev nD) : (dats m 0 c).arrAt 4 cfg0.N = paddedResult m c :=
  (dats m 0 c).arrAt_eq_of_cover 4 (paddedResult m c) (fun t hf => flushed_eq m c t hf) (covered)

/-- … which is the map of the arguments. -/
theorem padded_eq (c : Dev nD) : paddedResult m c = result m c :=
  embedPadded_eq_embed _ _ _ _ _ _ _ _ (cells_apply m c) (weights_apply m c) (mask_apply m c) (bias_apply m c)

theorem final (c : Dev nD) : (dats m 0 c).arrAt 4 cfg0.N = result m c := (final_padded m c).trans (padded_eq m c)

/-- The lines after the region: the array viewed as 4096 × 192 × 64, its last two axes swapped. -/
abbrev rearranged (y : Mat 4096 12288) : S4096x64x192.Idx → EReal :=
  transpose S4096x64x192 [0, 2, 1] (shapeCast S4096x192x64 y shapeCasts_S4096x12288_S4096x192x64)
    transposes_S4096x192x64_S4096x64x192_0_2_1

/-- The program's result: the lines after the region applied to the array the region left. -/
theorem tail_eq (c : Dev nD) :
    (Pipeline.afterTail₀ cfgs (dats m) 0 (V0 m) [hostOps1] c main_v8 : S4096x64x192.Idx → Elt Ideal .f32)
      = rearranged (result m c) := by
  have e : (Pipeline.withArrays (cfgs 0).spec c (V0 m c) (fun w => (dats m 0 c).arrAt w (cfgs 0).N)
      (Proc.devRef .tc main_v6) : S4096x12288.Idx → Elt Ideal .f32) = result m c :=
    (Pipeline.withArrays_arr spec0 launch0.win.arr_inj c _ _ 4).trans (final m c)
  unfold Pipeline.afterTail₀
  show StableHlo.after hostOps1 _ (Proc.devRef .tc main_v8) = _
  after_results
  rw [e]
  rfl

/-- THE KERNEL'S RUN, READ: every weakly fair execution ends with the result at the rearranged map of the arguments,
    and the arguments as they were. -/
theorem run : θ_run defs (onTc (τ := τ) (main (F := Ideal))) ⟨m, fun _ => 0, ρ⟩ fun r => ∀ c : Dev nD,
      r.2.mem ((c.tc : Thread nD τ).loc main_v8) = rearranged (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.MaskedEmbed.Kernel

end
-- ==== Proof.RefValue.lean ====
/-
  The reference computes the same map.

  The reference expands the mask to one column per output column (column `C` reads patch `C / 192`), multiplies the
  weights by it entry by entry, contracts the cells with the product over the 4000 genes, and adds the bias to every
  row: at cell `R`, column `C` that is `(∑ k, x (R, k) · (W (k, C) · mask (k, C / 192))) + b C`, the map `embed`.
  It then views the 4096 × 12288 result as 4096 × 192 × 64 and swaps the last two axes.
-/
import proofs.«131649_j3874060501841_1_alg».proof.Proof.Gen.ReferenceIdeal.Read
import proofs.«131649_j3874060501841_1_alg».proof.Proof.Spec

noncomputable section

open scoped BigOperators
open Idealize.ShloMosaic Idealize.ShloMosaic.ValueIdx

namespace Cert.MaskedEmbed.Reference

open Cert.ReferenceIdeal Cert.ReferenceIdeal.Gen Cert.ReferenceIdeal.Read Cert.MaskedEmbed

/-- The contraction reads the cells at (R, k) … -/
theorem lidx_eq (R : Fin 4096) (C : Fin 12288) (k : Fin 4000) : lidx_main_v3 (ix2 R C) k = ix2 R k :=
  funext fun a => Fin.ext (by match a with | ⟨0, _⟩ => rfl | ⟨1, _⟩ => rfl)
/-- … and the masked weights at (k, C). -/
theorem ridx_eq (R : Fin 4096) (C : Fin 12288) (k : Fin 4000) : ridx_main_v3 (ix2 R C) k = ix2 k C :=
  funext fun a => Fin.ext (by match a with | ⟨0, _⟩ => rfl | ⟨1, _⟩ => rfl)
/-- The expanded mask at (k, C) reads the mask at gene `k`, patch `C / 192`. -/
theorem maskIdx_eq (k : Fin 4000) (C : Fin 12288) : idx_main_v0 (idx_main_v1 (ix2 k C)) = ix2 k (patchOf C) :=
  funext fun a => Fin.ext (by
    have hk : k.val < 4000 := k.isLt
    have hC : C.val < 12288 := C.isLt
    match a with
    | ⟨0, _⟩ => show (k.val * 12288 + C.val) / 12288 = k.val; omega
    | ⟨1, _⟩ => show (k.val * 12288 + C.val) / 192 % 64 = C.val / 192; omega)
/-- The bias broadcast to every row reads `b C`. -/
theorem biasIdx_eq (R : Fin 4096) (C : Fin 12288) : idx_main_v4 (idx_main_v5 (ix2 R C)) = ix1 C :=
  funext fun a => Fin.ext (by match a with | ⟨0, _⟩ => rfl)

/-- The reference's 4096 × 12288 stage is the map of its arguments. -/
theorem stage_eq (x : Mat 4096 4000) (mask : Mat 4000 64) (W : Mat 4000 12288) (b : Row 12288) :
    val_main_v6 (F := Ideal) x mask W b = embed x mask W b := by
  funext J
  obtain ⟨R, C, rfl⟩ : ∃ (R : Fin 4096) (C : Fin 12288), J = ix2 R C := ⟨J 0, J 1, eq_ix2 J⟩
  show _ = embedAt x mask W b R C
  rw [val_main_v6_apply, val_main_v3_apply, val_main_v5_apply, val_main_v4_apply, biasIdx_eq]
  unfold embedAt
  refine congrArg (· + b (ix1 C)) (Finset.sum_congr rfl fun k _ => ?_)
  rw [val_main_v2_apply, val_main_v1_apply, val_main_v0_apply, lidx_eq, ridx_eq, maskIdx_eq]
  rfl

/-- So its result is that map, viewed as 4096 × 192 × 64 with the last two axes swapped. -/
theorem result_eq (x : Mat 4096 4000) (mask : Mat 4000 64) (W : Mat 4000 12288) (b : Row 12288) :
    val_main_v8 (F := Ideal) x mask W b
      = transpose S4096x64x192 [0, 2, 1] (shapeCast S4096x192x64 (embed x mask W b) shapeCasts_S4096x12288_S4096x192x64)
          transposes_S4096x192x64_S4096x64x192_0_2_1 := by
  unfold val_main_v8 val_main_v7
  rw [stage_eq]

end Cert.MaskedEmbed.Reference

end
-- ==== Proof.lean ====
/-
  A masked linear embedding, tiled and padded, against its plain formula — equal over the extended reals.

  Both programs take cells `x` (4096 × 4000 genes), a gene-to-patch `mask` (4000 × 64), weights `W` (4000 × 12288) and
  a bias `b` (12288), with output column `C` belonging to patch `C / 192`, and compute

      out (R, C) = (∑ k < 4000, x (R, k) · (W (k, C) · mask (k, C / 192))) + b C,

  then view the 4096 × 12288 result as 4096 × 192 × 64 and swap the last two axes.

  The reference does this in one contraction. The kernel pads the gene axis with zeros to 4096, cuts the work into
  8 × 8 × 8 blocks (512 cells, 1536 columns, 512 genes) and, for each output block, adds up the eight gene blocks'
  products in a running accumulator that it resets at the first gene block and writes out, plus bias, at the last.
  Over the extended reals a change of float format is the identity and a block product is a plain sum, so the
  accumulator after gene block `g` is the contraction over the first `512 (g + 1)` padded genes (by induction on the grid
  point); after the eighth it is the contraction over all 4096, and a padded gene contributes `0 · (0 · 0) = 0`. The two
  sides differ only in how one sum is grouped and in terms that are zero: the laws used are associativity and
  commutativity of `+`, `x + 0 = x` and `0 · y = 0`, all of which hold at the infinities, so the precondition that the
  inputs be finite is never opened.

  The kernel's two frames are the generated ones; the reference's frame is its generated run with the result dropped;
  the idealization rewrote nothing, so `preserves` is `True`.
-/
import proofs.«131649_j3874060501841_1_alg».proof.Defs
import proofs.«131649_j3874060501841_1_alg».proof.Proof.Gen.Kernel
import proofs.«131649_j3874060501841_1_alg».proof.Proof.Gen.Kernel.Skeleton
import proofs.«131649_j3874060501841_1_alg».proof.Proof.Gen.Kernel.Launch
import proofs.«131649_j3874060501841_1_alg».proof.Proof.Gen.Kernel.Points
import proofs.«131649_j3874060501841_1_alg».proof.Proof.Gen.Kernel.Frame
import proofs.«131649_j3874060501841_1_alg».proof.Proof.Gen.KernelIdeal
import proofs.«131649_j3874060501841_1_alg».proof.Proof.Gen.KernelIdeal.Skeleton
import proofs.«131649_j3874060501841_1_alg».proof.Proof.Gen.KernelIdeal.Launch
import proofs.«131649_j3874060501841_1_alg».proof.Proof.Gen.KernelIdeal.Points
import proofs.«131649_j3874060501841_1_alg».proof.Proof.Gen.KernelIdeal.Frame
import proofs.«131649_j3874060501841_1_alg».proof.Proof.Gen.ReferenceIdeal
import proofs.«131649_j3874060501841_1_alg».proof.Proof.Gen.Pre_finite_inputs
import proofs.«131649_j3874060501841_1_alg».proof.Proof.Gen.ReferenceIdeal.Run
import proofs.«131649_j3874060501841_1_alg».proof.Proof.Gen.ReferenceIdeal.Read
import proofs.«131649_j3874060501841_1_alg».proof.Proof.KernelValue
import proofs.«131649_j3874060501841_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the idealized kernel and the idealized reference both end with the masked embedding of
    the arguments, rearranged: the kernel by its accumulator invariant and the zero padding, the reference by reading
    its contraction entry by entry. -/
theorem algebraic : Cert.algebraic_KernelIdeal_ReferenceIdeal := by
  intro m ρ m' ρ' _ hagree
  refine ⟨fun c => Cert.MaskedEmbed.Kernel.rearranged (Cert.MaskedEmbed.Kernel.result m c),
    Cert.MaskedEmbed.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq _ _ _ _).trans ?_
  refine (Cert.MaskedEmbed.Reference.result_eq _ _ _ _).trans ?_
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
